-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) (main_arg1 : FVec F S8192x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  main_v8
-- ==== Kernel.lean ====
abbrev S8192x256 : Shape := ⟨2, ![8192, 256]⟩
abbrev S8192x8192 : Shape := ⟨2, ![8192, 8192]⟩
abbrev S1024x256 : Shape := ⟨2, ![1024, 256]⟩
abbrev S1024x1024 : Shape := ⟨2, ![1024, 1024]⟩
abbrev S1024 : Shape := ⟨1, ![1024]⟩
abbrev S1024x1 : Shape := ⟨2, ![1024, 1]⟩
abbrev S1x1024 : Shape := ⟨2, ![1, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x8192, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x1024, .f32⟩
  | .local _ .vmem, ⟨5, _⟩ => ⟨S1024x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1024x256_S1024x256_0_0 : ∀ a, (![0, 0] : Fin 2 → Nat) a + S1024x256.size a ≤ S1024x256.size a
  h_S1024x256 : 0 < S1024x256.numel
  reduces_S1024x256_S1024 : S1024x256.Reduces [1] S1024
  shapeCasts_S1024_S1024x1 : S1024.ShapeCasts S1024x1
  transposes_S1024x1_p1_0_S1x1024 : S1024x1.Transposes [1, 0] S1x1024
  bitsLt_bf16_f32 : FTy.bits .bf16 < FTy.bits .f32
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  dot_S1024x256_S1024x256_S1024x1024_1_1_0_0_n_n_wf : DotDims.WF S1024x256 S1024x256 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x256.size a
  hwx0_1 : ∀ i : grid0.Coords, EltTy.bits .f32 = 32 ∨ (Rect.block (s := S8192x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x8192.size a
  hwx0_2 : ∀ i : grid0.Coords, EltTy.bits .f32 = 32 ∨ (Rect.block (s := S8192x8192) S1024x1024.size (cc0_transform_2 i) (hinb0_2 i)).WholeWords (EltTy.packing .f32)

variable [Facts₀]

def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x256 : Shape := ⟨2, ![8192, 256]⟩
abbrev S_ : Shape := ⟨0, ![]⟩
abbrev S8192 : Shape := ⟨1, ![8192]⟩
abbrev S256x8192 : Shape := ⟨2, ![256, 8192]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 26
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S_, .f32⟩
  | .hbm, ⟨4, _⟩ => ⟨S8192, .f32⟩
  | .hbm, ⟨5, _⟩ => ⟨S8192x256, .f32⟩
  | .hbm, ⟨6, _⟩ => ⟨S_, .f32⟩
  | .hbm, ⟨7, _⟩ => ⟨S8192, .f32⟩
  | .hbm, ⟨8, _⟩ => ⟨S256x8192, .f32⟩
  | .hbm, ⟨9, _⟩ => ⟨S8192x8192, .f32⟩
  | .hbm, ⟨10, _⟩ => ⟨S8192x1, .f32⟩
  | .hbm, ⟨11, _⟩ => ⟨S1x8192, .f32⟩
  | .hbm, ⟨12, _⟩ => ⟨S8192x8192, .f32⟩
  | .hbm, ⟨13, _⟩ => ⟨S8192x8192, .f32⟩
  | .hbm, ⟨14, _⟩ => ⟨S8192x8192, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S_, .f32⟩
  | .hbm, ⟨20, _⟩ => ⟨S8192x8192, .f32⟩
  | .hbm, ⟨21, _⟩ => ⟨S8192x8192, .f32⟩
  | .hbm, ⟨22, _⟩ => ⟨S_, .f32⟩
  | .hbm, ⟨23, _⟩ => ⟨S8192x8192, .f32⟩
  | .hbm, ⟨24, _⟩ => ⟨S8192x8192, .f32⟩
  | .hbm, ⟨25, _⟩ => ⟨S8192x8192, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  transposes_S8192x256_S256x8192_1_0 : S8192x256.Transposes [1, 0] S256x8192
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  dot_S8192x256_S256x8192_S8192x8192_1_0_0_1_n_n_wf : DotDims.WF S8192x256 S256x8192 S8192x8192 [1] [0] [0] [1] [] []

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf

class Facts : Prop extends Facts₀ where

variable [Facts]
-- ==== Proof.RbfSpec.lean ====
/-
  The pairwise Gaussian (RBF) kernel matrix of two families of 8192 points in dimension 256, as one function of the
  two argument arrays, entry by entry, on the extended reals:

      K[r, s] = exp( w₋₁ · max( (‖x_r‖² + ‖y_s‖²) − w₂ · ⟨x_r, y_s⟩ , w₀ ) )

  with ‖x_r‖² = ∑ₖ x[r,k]·x[r,k], ‖y_s‖² = ∑ₖ y[s,k]·y[s,k], ⟨x_r, y_s⟩ = ∑ₖ x[r,k]·y[s,k], the sums over the 256
  coordinates, and w₋₁, w₂, w₀ the values of the three float words both programs carry (−1, 2 and 0); the words are
  kept as words, since the same word stands on both sides and its value never matters.
  This is the squared distance ‖x_r − y_s‖² expanded, clamped at zero, scaled by −γ with γ = 1 and exponentiated; both
  programs compute it in exactly this arrangement, so no law of the extended reals beyond "0 + a = a" is needed to
  join them, and the inputs' finiteness is never used.
-/
import Idealize.ShloMosaic.PureOps.Ideal
import Idealize.ShloMosaic.PureOps.Ideal.Laws
import Idealize.ShloMosaic.Lib.ValueIdx

noncomputable section

open scoped BigOperators

namespace Cert.Rbf

open Idealize.ShloMosaic Idealize.ShloMosaic.ValueIdx

/-- The shape of each family of points: 8192 points, 256 coordinates each. -/
abbrev Pts : Shape := ⟨2, ![8192, 256]⟩
/-- The shape of the kernel matrix: one entry per pair of points. -/
abbrev Gram : Shape := ⟨2, ![8192, 8192]⟩

/-- The squared Euclidean norm of point `r` of the family `x`. -/
def sqnorm (x : Pts.Idx → EReal) (r : Fin 8192) : EReal := ∑ k : Fin 256, x (ix2 r k) * x (ix2 r k)

/-- The inner product of point `r` of `x` with point `s` of `y`. -/
def inner (x y : Pts.Idx → EReal) (r s : Fin 8192) : EReal := ∑ k : Fin 256, x (ix2 r k) * y (ix2 s k)

/-- One entry of the kernel matrix, from the two points' squared norms and their inner product. -/
def entry (x y : Pts.Idx → EReal) (r s : Fin 8192) : EReal :=
  Ideal.exp (Ideal.ofBits .f32 0xBF800000#32
    * max ((sqnorm x r + sqnorm y s) - Ideal.ofBits .f32 0x40000000#32 * inner x y r s) (Ideal.ofBits .f32 0x00000000#32))

/-- The kernel matrix as one function of the two argument arrays. -/
def gram (x y : Pts.Idx → EReal) : Gram.Idx → EReal := fun i => entry x y (i 0) (i 1)

/-- The matrix at the index with coordinates `r`, `s`. -/
theorem gram_ix2 (x y : Pts.Idx → EReal) (r s : Fin 8192) : gram x y (ix2 r s) = entry x y r s := rfl

/-- The zero word is the extended real zero, so a sum started from it is the sum. -/
theorem zero_word_add (a : EReal) : Ideal.ofBits .f32 0x00000000#32 + a = a := by
  rw [Ideal.ofBits_zero_f32, zero_add]

end Cert.Rbf

end
-- ==== Proof.RbfReference.lean ====
/-
  The reference's result is the kernel matrix of the specification.
  The reference squares each array, sums each row (the host's sum: the zero word plus the sum over the 256
  coordinates), multiplies `x` by the transpose of `y` (a contraction over the coordinate), broadcasts the two vectors
  of squared norms down the columns and along the rows, and ends with the same subtraction, clamp, scaling and
  exponential as the specification. Read at an index (r, s) every stage is the specification's term: the row sums
  are taken at rows r of `x` and s of `y`, the contraction pairs `x[r,k]` with `yᵀ[k,s] = y[s,k]`, and the host's
  exponential is the extended reals' exponential.
-/
import proofs.«115995_j65481071399682_1_alg».proof.Proof.Gen.ReferenceIdeal.Read
import proofs.«115995_j65481071399682_1_alg».proof.Proof.RbfSpec

noncomputable section

open scoped BigOperators

namespace Cert.Rbf.Reference

open Cert.ReferenceIdeal Cert.ReferenceIdeal.Gen Cert.ReferenceIdeal.Read
open Idealize.ShloMosaic Idealize.ShloMosaic.TcCoe Idealize.ShloMosaic.ValueIdx

/-- Row `r` of the first array is where the first squared norm's sum runs, once the two broadcasts are undone. -/
theorem row_of_x (i : S8192x8192.Idx) (k : Fin 256) :
    idx_main_v1 (idx_main_v6 (idx_main_v8 i)) k = ix2 (i 0) k :=
  funext fun a => Fin.ext (by match a with | ⟨0, _⟩ => rfl | ⟨1, _⟩ => rfl)

/-- Row `s` of the second array is where the second squared norm's sum runs. -/
theorem row_of_y (i : S8192x8192.Idx) (k : Fin 256) :
    idx_main_v3 (idx_main_v7 (idx_main_v9 i)) k = ix2 (i 1) k :=
  funext fun a => Fin.ext (by match a with | ⟨0, _⟩ => rfl | ⟨1, _⟩ => rfl)

/-- The contraction's left factor is `x` at (r, k). -/
theorem left_factor (i : S8192x8192.Idx) (k : Fin 256) : lidx_main_v5 i k = ix2 (i 0) k :=
  funext fun a => Fin.ext (by match a with | ⟨0, _⟩ => rfl | ⟨1, _⟩ => rfl)

/-- The contraction's right factor, through the transpose, is `y` at (s, k). -/
theorem right_factor (i : S8192x8192.Idx) (k : Fin 256) : idx_main_v4 (ridx_main_v5 i k) = ix2 (i 1) k :=
  funext fun a => Fin.ext (by match a with | ⟨0, _⟩ => rfl | ⟨1, _⟩ => rfl)

/-- The reference's last stage is the specification's matrix of the same two arrays. -/
theorem result_eq (x y : (⟨S8192x256, .f32⟩ : BufTy).Contents (Elt Ideal)) :
    val_main_v18 (F := Ideal) x y = Cert.Rbf.gram x y := by
  funext i
  rw [val_main_v18_apply, val_main_v17_apply, val_main_v16_apply, val_main_cst_3_apply, val_main_v15_apply,
    val_main_v14_apply, val_main_cst_2_apply, val_main_v13_apply, val_main_v12_apply, val_main_v11_apply,
    val_main_cst_1_apply, val_main_v5_apply, val_main_v10_apply, val_main_v8_apply, val_main_v6_apply,
    val_main_v1_apply, val_main_v9_apply, val_main_v7_apply, val_main_v3_apply, val_main_cst_apply,
    val_main_cst_0_apply]
  simp only [val_main_v0_apply, val_main_v2_apply, val_main_v4_apply, row_of_x, row_of_y, left_factor, right_factor]
  show Ideal.exp (Ideal.ofBits .f32 0xBF800000#32
      * max ((Ideal.ofBits .f32 0x00000000#32 + Cert.Rbf.sqnorm x (i 0)
            + (Ideal.ofBits .f32 0x00000000#32 + Cert.Rbf.sqnorm y (i 1)))
          - Ideal.ofBits .f32 0x40000000#32 * Cert.Rbf.inner x y (i 0) (i 1)) (Ideal.ofBits .f32 0x00000000#32))
    = Cert.Rbf.entry x y (i 0) (i 1)
  rw [Cert.Rbf.zero_word_add, Cert.Rbf.zero_word_add]
  rfl

end Cert.Rbf.Reference

end
-- ==== Proof.RbfBody.lean ====
/-
  The kernel body's one stored value, read at an index of the output block.
  At a grid point the body loads a block `a` of 1024 points of the first family and a block `b` of 1024 points of the
  second, and stores exp(w₋₁ · max((A + B) − w₂ · P, w₀)) where, as 1024 × 1024 arrays,
    A[p, q] = ∑ₖ a[p,k]·a[p,k]   (the row sums of a∘a, kept as a column and broadcast along the rows),
    B[p, q] = ∑ₖ b[q,k]·b[q,k]   (the row sums of b∘b, kept as a column, transposed into a row and broadcast down the columns),
    P[p, q] = ∑ₖ a[p,k]·b[q,k]   (the matrix product a · bᵀ into a zero accumulator; the narrowing of the factors to
                                   bf16 is the identity on the extended reals).
  The three arrays are named here and read at (p, q); everything else in the body is pointwise.
-/
import proofs.«115995_j65481071399682_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Rbf.Body

open Cert.KernelIdeal Cert.KernelIdeal.Gen
open Idealize.ShloMosaic Idealize.ShloMosaic.TcCoe Idealize.ShloMosaic.ValueIdx

/-! ## The squared norms of a block's points -/

/-- The squared norm of each of a block's 1024 points: the row sums of the block's entrywise square. -/
def sqnorms (v : FVec Ideal S1024x256 .f32) : FVec Ideal S1024 .f32 :=
  multiReduction .add [1] S1024 (mulf v v) 0x00000000#32 reduces_S1024x256_S1024 (.inl rfl) rfl

/-- At point `p` it is the sum over the coordinates of the squares. -/
theorem sqnorms_apply (v : FVec Ideal S1024x256 .f32) (p : Fin 1024) :
    sqnorms v (ix1 p) = ∑ k : Fin 256, v (ix2 p k) * v (ix2 p k) := by
  unfold sqnorms
  refine (Ideal.multiReduction_add_single (mulf v v) 0x00000000#32 reduces_S1024x256_S1024 (.inl rfl) rfl (ix1 p)).trans ?_
  refine Finset.sum_congr rfl fun k _ => ?_
  have e : reduces_S1024x256_S1024.lift (ix1 p) k = ix2 p k :=
    funext fun a => Fin.ext (by match a with | ⟨0, _⟩ => rfl | ⟨1, _⟩ => rfl)
  exact congrArg (fun z => v z * v z) e

/-- The squared norms kept as a column: entry (p, 0) is point `p`'s. -/
theorem column_apply (w : FVec Ideal S1024 .f32) (p : Fin 1024) (u : Fin 1) :
    shapeCast S1024x1 w shapeCasts_S1024_S1024x1 (ix2 p u) = w (ix1 p) :=
  shapeCast_apply w shapeCasts_S1024_S1024x1 (ix2 p u) (ix1 p) (by
    have hu : u.val = 0 := by omega
    rw [Shape.rowMajor_val_two, Shape.rowMajor_val_one]
    show p.val = p.val * 1 + u.val
    omega)

/-- The array whose entry (p, q) is the squared norm of point `p` of the block: the column broadcast along the rows. -/
def normsDown (v : FVec Ideal S1024x256 .f32) : FVec Ideal S1024x1024 .f32 :=
  broadcastTo S1024x1024 (shapeCast S1024x1 (sqnorms v) shapeCasts_S1024_S1024x1) broadcasts_S1024x1_S1024x1024

theorem normsDown_apply (v : FVec Ideal S1024x256 .f32) (p q : Fin 1024) :
    normsDown v (ix2 p q) = ∑ k : Fin 256, v (ix2 p k) * v (ix2 p k) := by
  unfold normsDown
  refine (broadcastTo_apply _ broadcasts_S1024x1_S1024x1024 (ix2 p q) (ix2 p (0 : Fin 1)) fun a => ?_).trans ?_
  · match a with
    | ⟨0, _⟩ => show p.val = if (1024 : Nat) = 1 then 0 else p.val; rw [if_neg (by decide)]
    | ⟨1, _⟩ => show 0 = if (1 : Nat) = 1 then 0 else q.val; rw [if_pos rfl]
  · exact (column_apply (sqnorms v) p 0).trans (sqnorms_apply v p)

/-- The array whose entry (p, q) is the squared norm of point `q` of the block: the column transposed into a row and
    broadcast down the columns. -/
def normsAcross (v : FVec Ideal S1024x256 .f32) : FVec Ideal S1024x1024 .f32 :=
  broadcastTo S1024x1024
    (transpose S1x1024 [1, 0] (shapeCast S1024x1 (sqnorms v) shapeCasts_S1024_S1024x1) transposes_S1024x1_p1_0_S1x1024)
    broadcasts_S1x1024_S1024x1024

theorem normsAcross_apply (v : FVec Ideal S1024x256 .f32) (p q : Fin 1024) :
    normsAcross v (ix2 p q) = ∑ k : Fin 256, v (ix2 q k) * v (ix2 q k) := by
  unfold normsAcross
  refine (broadcastTo_1b_ab_apply _ broadcasts_S1x1024_S1024x1024 p q).trans ?_
  refine (transpose_ix2_apply _ transposes_S1024x1_p1_0_S1x1024 (0 : Fin 1) q).trans ?_
  exact (column_apply (sqnorms v) q 0).trans (sqnorms_apply v q)

/-! ## The product of the two blocks -/

/-- Output row `p` reads row `p` of the left block, -/
theorem left_row (i : S1024x1024.Idx) (t : dot_S1024x256_S1024x256_S1024x1024_1_1_0_0_n_n.contr.Idx) :
    (dot_S1024x256_S1024x256_S1024x1024_1_1_0_0_n_n.lhsIdx i t 0).val = (i 0).val := by
  unfold DotDims.lhsIdx
  rw [dif_neg (show ¬(0 : Fin S1024x256.rank) ∈ dot_S1024x256_S1024x256_S1024x1024_1_1_0_0_n_n.lhsBatch by decide),
    dif_pos (show (0 : Fin S1024x256.rank) ∈ dot_S1024x256_S1024x256_S1024x1024_1_1_0_0_n_n.lhsNonContracting by decide)]
  rfl
/-- at the contracted coordinate; -/
theorem left_coord (i : S1024x1024.Idx) (t : dot_S1024x256_S1024x256_S1024x1024_1_1_0_0_n_n.contr.Idx) :
    (dot_S1024x256_S1024x256_S1024x1024_1_1_0_0_n_n.lhsIdx i t 1).val = (t ⟨0, by decide⟩).val :=
  dot_S1024x256_S1024x256_S1024x1024_1_1_0_0_n_n.lhsIdx_val_of_single rfl i t
/-- output column `q` reads row `q` of the right block, -/
theorem right_row (i : S1024x1024.Idx) (t : dot_S1024x256_S1024x256_S1024x1024_1_1_0_0_n_n.contr.Idx) :
    (dot_S1024x256_S1024x256_S1024x1024_1_1_0_0_n_n.rhsIdx i t 0).val = (i 1).val := by
  unfold DotDims.rhsIdx
  rw [dif_neg (show ¬(0 : Fin S1024x256.rank) ∈ dot_S1024x256_S1024x256_S1024x1024_1_1_0_0_n_n.rhsBatch by decide),
    dif_pos (show (0 : Fin S1024x256.rank) ∈ dot_S1024x256_S1024x256_S1024x1024_1_1_0_0_n_n.rhsNonContracting by decide)]
  rfl
/-- at the same contracted coordinate. -/
theorem right_coord (i : S1024x1024.Idx) (t : dot_S1024x256_S1024x256_S1024x1024_1_1_0_0_n_n.contr.Idx) :
    (dot_S1024x256_S1024x256_S1024x1024_1_1_0_0_n_n.rhsIdx i t 1).val = (t ⟨0, by decide⟩).val :=
  dot_S1024x256_S1024x256_S1024x1024_1_1_0_0_n_n.rhsIdx_val_of_single rfl i t

/-- The product a · bᵀ of the two blocks, their entries narrowed to bf16 first, into the zero accumulator. -/
def product (a b : FVec Ideal S1024x256 .f32) : FVec Ideal S1024x1024 .f32 :=
  matmul dot_S1024x256_S1024x256_S1024x1024_1_1_0_0_n_n none (truncf .bf16 a bitsLt_bf16_f32) (truncf .bf16 b bitsLt_bf16_f32)
    (constant S1024x1024 .f32 0x00000000#32)

/-- Its entry (p, q) is the inner product of point `p` of `a` with point `q` of `b`. -/
theorem product_apply (a b : FVec Ideal S1024x256 .f32) (p q : Fin 1024) :
    product a b (ix2 p q) = ∑ k : Fin 256, a (ix2 p k) * b (ix2 q k) := by
  unfold product
  simp only [matmul]
  rw [Ideal.matmul_constant_zero_apply,
    ← Equiv.sum_comp (contrEquiv1 dot_S1024x256_S1024x256_S1024x1024_1_1_0_0_n_n 256 rfl rfl).symm]
  refine Finset.sum_congr rfl fun k _ => ?_
  have hk := contrEquiv1_symm_val dot_S1024x256_S1024x256_S1024x1024_1_1_0_0_n_n 256 rfl rfl k
  have el : dot_S1024x256_S1024x256_S1024x1024_1_1_0_0_n_n.lhsIdx (ix2 p q)
      ((contrEquiv1 dot_S1024x256_S1024x256_S1024x1024_1_1_0_0_n_n 256 rfl rfl).symm k) = ix2 p k :=
    funext fun ax => Fin.ext (by
      match ax with
      | ⟨0, _⟩ => exact left_row _ _
      | ⟨1, _⟩ => exact (left_coord _ _).trans hk)
  have er : dot_S1024x256_S1024x256_S1024x1024_1_1_0_0_n_n.rhsIdx (ix2 p q)
      ((contrEquiv1 dot_S1024x256_S1024x256_S1024x1024_1_1_0_0_n_n 256 rfl rfl).symm k) = ix2 q k :=
    funext fun ax => Fin.ext (by
      match ax with
      | ⟨0, _⟩ => exact right_row _ _
      | ⟨1, _⟩ => exact (right_coord _ _).trans hk)
  rw [el, er]
  rfl

/-! ## The stored value -/

/-- The body's stored value is the pointwise expression over the three named arrays. -/
theorem payload_eq (a b : Vec Ideal S1024x256 .f32) :
    k0_pay1 (F := Ideal) a b
      = exp (mulf (broadcast S1024x1024 (Scalar.ofBits .f32 0xBF800000#32))
          (maximumf (subf (addf (normsDown a) (normsAcross b))
              (mulf (broadcast S1024x1024 (Scalar.ofBits .f32 0x40000000#32)) (product a b)))
            (broadcast S1024x1024 (Scalar.ofBits .f32 0x00000000#32)))) := rfl

/-- One entry of the output block from the two input blocks. -/
def blockEntry (a b : Vec Ideal S1024x256 .f32) (p q : Fin 1024) : EReal :=
  Ideal.exp (Ideal.ofBits .f32 0xBF800000#32
    * max (((∑ k : Fin 256, a (ix2 p k) * a (ix2 p k)) + ∑ k : Fin 256, b (ix2 q k) * b (ix2 q k))
        - Ideal.ofBits .f32 0x40000000#32 * ∑ k : Fin 256, a (ix2 p k) * b (ix2 q k)) (Ideal.ofBits .f32 0x00000000#32))

/-- THE STORED VALUE AT (p, q): the clamped, scaled, exponentiated expansion of the squared distance between point `p`
    of the first block and point `q` of the second. -/
theorem payload_apply (a b : Vec Ideal S1024x256 .f32) (p q : Fin 1024) :
    k0_pay1 (F := Ideal) a b (ix2 p q) = blockEntry a b p q := by
  rw [payload_eq]
  show Ideal.exp (Ideal.ofBits .f32 0xBF800000#32
      * max ((normsDown a (ix2 p q) + normsAcross b (ix2 p q)) - Ideal.ofBits .f32 0x40000000#32 * product a b (ix2 p q))
          (Ideal.ofBits .f32 0x00000000#32)) = _
  rw [normsDown_apply, normsAcross_apply, product_apply]
  rfl

end Cert.Rbf.Body

end
-- ==== Proof.RbfKernel.lean ====
/-
  The idealized kernel's output array, whole.
  The grid has 8 × 8 points; point (g, h) stages rows 1024·g … 1024·g+1023 of the first family, rows
  1024·h … 1024·h+1023 of the second, and writes back the 1024 × 1024 block of the output at block position (g, h).
  The body's stored value at (p, q) of the block is the specification's entry for the points p of the first staged
  block and q of the second, that is entry (1024·g + p, 1024·h + q) of the specification's matrix: each point writes
  back exactly its block of that matrix. The 64 blocks tile the 8192 × 8192 array (the block that holds (r, s) is
  (r / 1024, s / 1024)), so after the run the output array is the specification's matrix of the two argument arrays.
-/
import proofs.«115995_j65481071399682_1_alg».proof.Proof.Gen.KernelIdeal.Value
import proofs.«115995_j65481071399682_1_alg».proof.Proof.RbfSpec
import proofs.«115995_j65481071399682_1_alg».proof.Proof.RbfBody

noncomputable section

open scoped BigOperators

namespace Cert.Rbf.Kernel

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The body's accesses start at the origin of their buffers. -/
theorem origin : (![0, 0] : Fin 2 → Nat) = fun _ => 0 := funext fun a => by fin_cases a <;> rfl

/-- A block's entry is the matrix's entry, when the block's points are the families' points: if row `p` of the block
    `a` is row `r` of `x` and row `q` of `b` is row `s` of `y`, the body's value at (p, q) is entry (r, s). -/
theorem blockEntry_eq (x y : Cert.Rbf.Pts.Idx → EReal) (a b : Vec Ideal S1024x256 .f32) (r s : Fin 8192) (p q : Fin 1024)
    (ha : ∀ k : Fin 256, a (ix2 p k) = x (ix2 r k)) (hb : ∀ k : Fin 256, b (ix2 q k) = y (ix2 s k)) :
    Cert.Rbf.Body.blockEntry a b p q = Cert.Rbf.entry x y r s := by
  unfold Cert.Rbf.Body.blockEntry Cert.Rbf.entry Cert.Rbf.sqnorm Cert.Rbf.inner
  simp only [ha, hb]

/-- The printed index maps over the grid: the first family's window moves with the output's row block, the second
    family's with its column block, both at column block 0; and the output's block positions stay below 8. -/
theorem index_maps : ∀ t : Fin cfg0.N, win0_0.index t (0 : Fin 2) = win0_2.index t (0 : Fin 2)
    ∧ win0_0.index t (1 : Fin 2) = 0
    ∧ win0_1.index t (0 : Fin 2) = win0_2.index t (1 : Fin 2)
    ∧ win0_1.index t (1 : Fin 2) = 0
    ∧ win0_2.index t (0 : Fin 2) ≤ 7
    ∧ win0_2.index t (1 : Fin 2) ≤ 7 :=
  (by decide +kernel : ∀ t : Fin grid0.N, _)

/-- Every block position is some grid point's. -/
theorem block_onto : ∀ (g h : Fin 8), ∃ t : Fin cfg0.N, win0_2.index t = ![g.val, h.val] :=
  (by decide +kernel : ∀ (g h : Fin 8), ∃ t : Fin grid0.N, win0_2.index t = ![g.val, h.val])

/-- WHAT POINT `t` WRITES BACK is block `t` of the specification's matrix of the argument arrays. -/
theorem flushed_eq (c : Dev nD) (t : Fin cfg0.N) :
    (dats m 0 c).flushed 2 t
      = ((cfg0.win 2).blk t).view.read (Elt Ideal) (Cert.Rbf.gram (V m c main_arg0) (V m c main_arg1)) := by
  rw [Cert.KernelIdeal.Value.flushed2]
  unfold out0_2
  rw [View.canon_unit_zero origin]
  simp only [View.ld_unit_zero (S := S1024x256) origin]
  obtain ⟨e0, e1, e2, e3, e4, e5⟩ := index_maps t
  funext j
  obtain ⟨p, q, rfl⟩ : ∃ (p q : Fin 1024), j = ix2 p q := ⟨j 0, j 1, eq_ix2 j⟩
  show k0_pay1 (F := Ideal) (iblk m c 0 t) (iblk m c 1 t) (ix2 p q)
    = Cert.Rbf.gram (V m c main_arg0) (V m c main_arg1) (((cfg0.win 2).blk t).view.emb (ix2 p q))
  refine (Cert.Rbf.Body.payload_apply (iblk m c 0 t) (iblk m c 1 t) p q).trans ?_
  refine blockEntry_eq (V m c main_arg0) (V m c main_arg1) (iblk m c 0 t) (iblk m c 1 t)
    ((((cfg0.win 2).blk t).view.emb (ix2 p q)) 0) ((((cfg0.win 2).blk t).view.emb (ix2 p q)) 1) p q ?_ ?_
  · intro k
    show V m c main_arg0 (((cfg0.win 0).blk t).view.emb (ix2 p k)) = _
    refine congrArg (V m c main_arg0) (funext fun a => Fin.ext ?_)
    match a with
    | ⟨0, _⟩ =>
      show win0_0.index t (0 : Fin 2) * 1024 + 1 * p.val = win0_2.index t (0 : Fin 2) * 1024 + 1 * p.val
      omega
    | ⟨1, _⟩ =>
      show win0_0.index t (1 : Fin 2) * 256 + 1 * k.val = k.val
      omega
  · intro k
    show V m c main_arg1 (((cfg0.win 1).blk t).view.emb (ix2 q k)) = _
    refine congrArg (V m c main_arg1) (funext fun a => Fin.ext ?_)
    match a with
    | ⟨0, _⟩ =>
      show win0_1.index t (0 : Fin 2) * 1024 + 1 * q.val = win0_2.index t (1 : Fin 2) * 1024 + 1 * q.val
      omega
    | ⟨1, _⟩ =>
      show win0_1.index t (1 : Fin 2) * 256 + 1 * k.val = k.val
      omega

/-- An index of the output array is in point `t`'s block iff each coordinate is in the block's range on its axis. -/
theorem mem_block (t : Fin cfg0.N) (i : S8192x8192.Idx) :
    i ∈ ((cfg0.win 2).blk t).view.set ↔ ∀ a : Fin 2, win0_2.index t a * S1024x1024.size a ≤ (i a).val
      ∧ (i a).val < win0_2.index t a * S1024x1024.size a + S1024x1024.size a := by
  show i ∈ ((View.whole main_v0).slice (win0_2.rect t)).set ↔ _
  rw [View.set_slice_whole, Rect.mem_set_unit]
  exact Iff.rfl

/-- The blocks tile the array: (r, s) lies in the block at position (r / 1024, s / 1024), which some point writes back. -/
theorem covered (i : S8192x8192.Idx) :
    ∃ t : Fin cfg0.N, (cfg0.win 2).flush t = true ∧ i ∈ ((cfg0.win 2).blk t).view.set := by
  have hi0 : (i 0).val < 8192 := (i 0).isLt
  have hi1 : (i 1).val < 8192 := (i 1).isLt
  obtain ⟨t, ht⟩ := block_onto ⟨(i 0).val / 1024, by omega⟩ ⟨(i 1).val / 1024, by omega⟩
  have q0 : win0_2.index t (0 : Fin 2) = (i 0).val / 1024 := congrFun ht 0
  have q1 : win0_2.index t (1 : Fin 2) = (i 1).val / 1024 := congrFun ht 1
  refine ⟨t, flush0_2 t, ?_⟩
  rw [mem_block]
  intro a
  match a with
  | ⟨0, _⟩ =>
    show win0_2.index t (0 : Fin 2) * 1024 ≤ (i 0).val ∧ (i 0).val < win0_2.index t (0 : Fin 2) * 1024 + 1024
    omega
  | ⟨1, _⟩ =>
    show win0_2.index t (1 : Fin 2) * 1024 ≤ (i 1).val ∧ (i 1).val < win0_2.index t (1 : Fin 2) * 1024 + 1024
    omega

/-- THE OUTPUT ARRAY after the run is the specification's matrix of the two argument arrays. -/
theorem final (c : Dev nD) :
    (dats m 0 c).arrAt 2 cfg0.N
      = Cert.Rbf.gram (m ((c : Thread nD τ).loc main_arg0)) (m ((c : Thread nD τ).loc main_arg1)) :=
  (dats m 0 c).arrAt_eq_of_cover 2 (Cert.Rbf.gram (V m c main_arg0) (V m c main_arg1))
    (fun t _ => flushed_eq m c t) covered

/-- The idealized kernel's run: it ends with the result array at the specification's matrix of the arguments, and
    the arguments unchanged. -/
theorem run : θ_run defs (onTc (τ := τ) (main (F := Ideal))) ⟨m, fun _ => 0, ρ⟩ fun r => ∀ c : Dev nD,
      r.2.mem ((c : Thread nD τ).loc main_v0)
        = Cert.Rbf.gram (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.Rbf.Kernel

end
-- ==== Proof.lean ====
/- The pairwise Gaussian (RBF) kernel matrix exp(−‖x_r − y_s‖²) of two families of 8192 points in dimension 256,
   computed by a tiled kernel and by a whole-array reference, both through the expansion
       ‖x_r − y_s‖² = ‖x_r‖² + ‖y_s‖² − 2·⟨x_r, y_s⟩,
   clamped at zero before the exponential.
   The kernel works on an 8 × 8 grid of 1024 × 1024 output blocks; for each it takes the row sums of squares of a
   block of each family, their product a·bᵀ on the matrix unit with the factors narrowed to bf16, and stores the
   exponential of minus the clamped combination. The reference does the same on the whole arrays, with the product as
   a contraction of `x` with the transpose of `y`.
   On the extended reals the narrowing is the identity, a product into a zero accumulator and a contraction are the
   same sum over the 256 coordinates, and a row sum on the vector unit and on the host are the same sum (the host's
   starting from the zero word). Both programs therefore compute, entry by entry, the one function of the two
   argument arrays written in RbfSpec.lean, in the same arrangement of additions and multiplications: no law of the
   extended reals that fails at the infinities is used, and the inputs' finiteness is not needed.
   RbfReference.lean reads the reference's stages at an index and finds that function; RbfBody.lean reads the kernel
   body's stored value at an index of a block; RbfKernel.lean places the 64 blocks in the output array. Below, the
   three runs are assembled into the claim: each program terminates without a fault and leaves its arguments
   unchanged, the idealization rewrote nothing, and the two idealized programs end with equal results. -/
import proofs.«115995_j65481071399682_1_alg».proof.Defs
import proofs.«115995_j65481071399682_1_alg».proof.Proof.Gen.Kernel
import proofs.«115995_j65481071399682_1_alg».proof.Proof.Gen.Kernel.Skeleton
import proofs.«115995_j65481071399682_1_alg».proof.Proof.Gen.Kernel.Launch
import proofs.«115995_j65481071399682_1_alg».proof.Proof.Gen.Kernel.Points
import proofs.«115995_j65481071399682_1_alg».proof.Proof.Gen.Kernel.Frame
import proofs.«115995_j65481071399682_1_alg».proof.Proof.Gen.KernelIdeal
import proofs.«115995_j65481071399682_1_alg».proof.Proof.Gen.KernelIdeal.Skeleton
import proofs.«115995_j65481071399682_1_alg».proof.Proof.Gen.KernelIdeal.Launch
import proofs.«115995_j65481071399682_1_alg».proof.Proof.Gen.KernelIdeal.Points
import proofs.«115995_j65481071399682_1_alg».proof.Proof.Gen.KernelIdeal.Frame
import proofs.«115995_j65481071399682_1_alg».proof.Proof.Gen.ReferenceIdeal
import proofs.«115995_j65481071399682_1_alg».proof.Proof.Gen.Pre_finite_inputs
import proofs.«115995_j65481071399682_1_alg».proof.Proof.Gen.KernelIdeal.Value
import proofs.«115995_j65481071399682_1_alg».proof.Proof.Gen.ReferenceIdeal.Run
import proofs.«115995_j65481071399682_1_alg».proof.Proof.Gen.ReferenceIdeal.Read
import proofs.«115995_j65481071399682_1_alg».proof.Proof.RbfSpec
import proofs.«115995_j65481071399682_1_alg».proof.Proof.RbfReference
import proofs.«115995_j65481071399682_1_alg».proof.Proof.RbfKernel
import Idealize.ShloMosaic.Adequacy
import Idealize.ShloMosaic.Init

noncomputable section

namespace Cert.Proof

open Idealize.ShloMosaic Idealize.ShloMosaic.TcCoe Idealize.SL.Sem

/-- The kernel as printed terminates without a fault and leaves both families of points as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- So does the reference: its run, with what it says of the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation of the kernel. -/
theorem preserves : Cert.preserves_Kernel_KernelIdeal := trivial

/-- From memories agreeing on the two families of points, the idealized kernel ends with its result array at the
    specification's matrix of them (the 64 blocks placed), and the idealized reference at its last stage, which read
    at an index is the same matrix. -/
theorem algebraic : Cert.algebraic_KernelIdeal_ReferenceIdeal := by
  intro m ρ m' ρ' _ hagree
  refine ⟨_, Cert.Rbf.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.Rbf.Reference.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
